-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x1x64 : S_.BroadcastsInDim S1600000x1x64 (![] : Fin 0 → Fin S1600000x1x64.rank)
  reducesTo_S1600000x1x64_S_d0_1_2 : S1600000x1x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x1x64 .f32) (main_arg1 : FVec F S1600000x1x64 .f32) (main_arg2 : IVec S1600000 32) (main_arg3 : IVec S1600000 32) (main_arg4 : FVec F S64x128 .f32) (main_arg5 : FVec F S64 .f32) (main_arg6 : FVec F S64x128 .f32) (main_arg7 : FVec F S64 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x1x64 .f32 := Host.absf main_arg1
  let main_cst_0 : FVec F S_ .f32 := constant S_ .f32 0x7F800000#32
  let main_v5 : FVec F S1600000x1x64 .f32 := broadcastInDim S1600000x1x64 ![] bcast_S_S1600000x1x64 main_cst_0
  let main_v6 : IVec S1600000x1x64 1 := cmpf .olt main_v4 main_v5
  let main_c_1 : IVec S_ 1 := constantI S_ 1 1#1
  let main_v7 : IVec S_ 1 := (fun x v => Host.reduce IntOp.andi x v reducesTo_S1600000x1x64_S_d0_1_2 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S100000x64 : Shape := ⟨2, ![100000, 64]⟩
abbrev S1600000x64 : Shape := ⟨2, ![1600000, 64]⟩
abbrev S_ : Shape := ⟨0, ![]⟩
abbrev S1600000x1 : Shape := ⟨2, ![1600000, 1]⟩
abbrev S64x64 : Shape := ⟨2, ![64, 64]⟩
abbrev S10000x64 : Shape := ⟨2, ![10000, 64]⟩
abbrev S1x64 : Shape := ⟨2, ![1, 64]⟩

abbrev nBuf : Space → Nat
  | .hbm => 30
  | .vmem => 18
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S100000x64, .f32⟩
  | .hbm, ⟨9, _⟩ => ⟨S1600000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S64x64, .f32⟩
  | .hbm, ⟨20, _⟩ => ⟨S64x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x64, .f32⟩
  | .hbm, ⟨27, _⟩ => ⟨S64x64, .f32⟩
  | .hbm, ⟨28, _⟩ => ⟨S100000x64, .f32⟩
  | .hbm, ⟨29, _⟩ => ⟨S100000x1x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S100000x1x64_S100000x64 : S100000x1x64.ShapeCasts S100000x64
  shapeCasts_S1600000x1x64_S1600000x64 : S1600000x1x64.ShapeCasts S1600000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S64x128_S64x64_0_0 : S64x128.Slices ![0, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S100000x64 : S_.BroadcastsInDim S100000x64 (![] : Fin 0 → Fin S100000x64.rank)
  bcast_S100000x64_S100000x1x64_0_2 : S100000x64.BroadcastsInDim S100000x1x64 (![0, 2] : Fin 2 → Fin S100000x1x64.rank)
  gather_S100000x64_S1600000x1_S1600000x64_1_0_n_n_0_1_164_wf : GatherDims.WF S100000x64 S1600000x1 S1600000x64 [1] [0] [] [0] [] 1 ![1, 64]
  dot_S10000x64_S64x64_S10000x64_1_0_0_1_n_n_wf : DotDims.WF S10000x64 S64x64 S10000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1600000x64.size a
  hwx0_1 : ∀ i : grid0.Coords, EltTy.bits .f32 = 32 ∨ (Rect.block (s := S1600000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1600000x64.size a
  hwx0_5 : ∀ i : grid0.Coords, EltTy.bits .f32 = 32 ∨ (Rect.block (s := S1600000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v8) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x1x128 : Shape := ⟨3, ![1600000, 1, 128]⟩
abbrev S1x1x64 : Shape := ⟨3, ![1, 1, 64]⟩
abbrev S100000x1x128 : Shape := ⟨3, ![100000, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x1x64, .f32⟩
  | .hbm, ⟨17, _⟩ => ⟨S1600000x1x128, .f32⟩
  | .hbm, ⟨18, _⟩ => ⟨S1600000x1x64, .f32⟩
  | .hbm, ⟨19, _⟩ => ⟨S1x1x64, .f32⟩
  | .hbm, ⟨20, _⟩ => ⟨S1600000x1x64, .f32⟩
  | .hbm, ⟨21, _⟩ => ⟨S1600000x1x64, .f32⟩
  | .hbm, ⟨22, _⟩ => ⟨S_, .f32⟩
  | .hbm, ⟨23, _⟩ => ⟨S1600000x1x64, .f32⟩
  | .hbm, ⟨24, _⟩ => ⟨S1600000x1x64, .f32⟩
  | .hbm, ⟨25, _⟩ => ⟨S_, .f32⟩
  | .hbm, ⟨26, _⟩ => ⟨S100000x1x64, .f32⟩
  | .hbm, ⟨27, _⟩ => ⟨S1600000x1, .i32⟩
  | .hbm, ⟨28, _⟩ => ⟨S100000x1x64, .f32⟩
  | .hbm, ⟨29, _⟩ => ⟨S100000x1x128, .f32⟩
  | .hbm, ⟨30, _⟩ => ⟨S100000x1x64, .f32⟩
  | .hbm, ⟨31, _⟩ => ⟨S1x1x64, .f32⟩
  | .hbm, ⟨32, _⟩ => ⟨S100000x1x64, .f32⟩
  | .hbm, ⟨33, _⟩ => ⟨S100000x1x64, .f32⟩
  | .hbm, ⟨34, _⟩ => ⟨S_, .f32⟩
  | .hbm, ⟨35, _⟩ => ⟨S100000x1x64, .f32⟩
  | .hbm, ⟨36, _⟩ => ⟨S100000x1x64, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1x64_S1600000x1x64_S1600000x1x128_d2 : Shape.Concatenates [S1600000x1x64, S1600000x1x64] S1600000x1x128 2
  bcast_S64_S1x1x64_2 : S64.BroadcastsInDim S1x1x64 (![2] : Fin 1 → Fin S1x1x64.rank)
  bcast_S1x1x64_S1600000x1x64_0_1_2 : S1x1x64.BroadcastsInDim S1600000x1x64 (![0, 1, 2] : Fin 3 → Fin S1600000x1x64.rank)
  bcast_S_S1600000x1x64 : S_.BroadcastsInDim S1600000x1x64 (![] : Fin 0 → Fin S1600000x1x64.rank)
  bcast_S_S100000x1x64 : S_.BroadcastsInDim S100000x1x64 (![] : Fin 0 → Fin S100000x1x64.rank)
  concatenates_S100000x1x64_S100000x1x64_S100000x1x128_d2 : Shape.Concatenates [S100000x1x64, S100000x1x64] S100000x1x128 2
  bcast_S1x1x64_S100000x1x64_0_1_2 : S1x1x64.BroadcastsInDim S100000x1x64 (![0, 1, 2] : Fin 3 → Fin S100000x1x64.rank)
  gather_S100000x1x64_S1600000x1_S1600000x1x64_12_0_n_n_0_1_1164_wf : GatherDims.WF S100000x1x64 S1600000x1 S1600000x1x64 [1, 2] [0] [] [0] [] 1 ![1, 1, 64]
  dot_S1600000x1x128_S64x128_S1600000x1x64_2_1_01_0_n_n_wf : DotDims.WF S1600000x1x128 S64x128 S1600000x1x64 [2] [1] [0, 1] [0] [] []
  scatter_S100000x1x64_S1600000x1_S1600000x1x64_12_0_0_1_wf : ScatterDims.WF S100000x1x64 S1600000x1 S1600000x1x64 [1, 2] [0] [0] 1
  dot_S100000x1x128_S64x128_S100000x1x64_2_1_01_0_n_n_wf : DotDims.WF S100000x1x128 S64x128 S100000x1x64 [2] [1] [0, 1] [0] [] []

variable [Facts₀]

def gather_S100000x1x64_S1600000x1_S1600000x1x64_12_0_n_n_0_1_1164 : GatherDims S100000x1x64 S1600000x1 S1600000x1x64 where
  offsetDims := [1, 2]
  collapsedSliceDims := [0]
  operandBatchingDims := []
  startIndicesBatchingDims := []
  startIndexMap := [0]
  indexVectorDim := 1
  sliceSizes := ![1, 1, 64]
  wf := gather_S100000x1x64_S1600000x1_S1600000x1x64_12_0_n_n_0_1_1164_wf
def dot_S1600000x1x128_S64x128_S1600000x1x64_2_1_01_0_n_n : DotDims S1600000x1x128 S64x128 S1600000x1x64 where
  lhsContracting := [2]
  rhsContracting := [1]
  lhsNonContracting := [0, 1]
  rhsNonContracting := [0]
  lhsBatch := []
  rhsBatch := []
  wf := dot_S1600000x1x128_S64x128_S1600000x1x64_2_1_01_0_n_n_wf
def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf
def dot_S100000x1x128_S64x128_S100000x1x64_2_1_01_0_n_n : DotDims S100000x1x128 S64x128 S100000x1x64 where
  lhsContracting := [2]
  rhsContracting := [1]
  lhsNonContracting := [0, 1]
  rhsNonContracting := [0]
  lhsBatch := []
  rhsBatch := []
  wf := dot_S100000x1x128_S64x128_S100000x1x64_2_1_01_0_n_n_wf

class Facts : Prop extends Facts₀ where

variable [Facts]
-- ==== Proof.Layer.lean ====
/-
  Two rounds of message passing on a graph, as one function of the argument arrays.

  A LAYER takes two vectors `a`, `b` of 64 features, a weight row of 128 entries given as its two halves `w1`, `w2`,
  and a bias, and returns `max (a · w1 + b · w2 + bias) 0`: a linear map on the concatenation `[a, b]` followed by relu.

  Edge `e` carries the message `layer (nf (row (src e))) (ef e) …`, where the source index is read the way array
  indexing reads it: a negative word has the table's length added, and the result is clamped into the table. Node `n`
  collects the sum of the messages of the edges whose destination word reads `n` (an edge whose word reads no node
  contributes nothing), and the result at node `n` is `layer (nf n) (collected n) …`.

  The one algebraic fact the comparison of the two programs needs is that a sum over 128 indices is the sum over its
  first 64 plus the sum over its last 64 — commutativity and associativity of addition on the extended reals, which
  hold without any finiteness assumption.
-/
import Idealize.ShloMosaic.PureOps.Ideal
import Idealize.ShloMosaic.Lib.ValueIdx

noncomputable section

namespace Cert.MsgPass

open Idealize.ShloMosaic Idealize.ShloMosaic.ValueIdx

/-- The zero the programs compare against and accumulate from: the all-zero 32-bit float pattern. -/
def zeroF : EReal := Ideal.ofBits .f32 0x00000000#32

/-- relu of a 128-wide inner product, given as its two 64-wide halves, plus a bias. -/
def layer (a b w1 w2 : Fin 64 → EReal) (bias : EReal) : EReal :=
  max (((∑ d : Fin 64, a d * w1 d) + (∑ d : Fin 64, b d * w2 d)) + bias) zeroF

/-- Index `d` of the first half of a 128-row. -/
def lo (d : Fin 64) : Fin 128 := ⟨d.val, by omega⟩
/-- Index `d` of the second half of a 128-row. -/
def hi (d : Fin 64) : Fin 128 := ⟨64 + d.val, by omega⟩

/-- A sum over 128 indices is the sum over the first 64 plus the sum over the last 64. -/
theorem sum_halves {M : Type} [AddCommMonoid M] (f : Fin 128 → M) :
    (∑ k : Fin 128, f k) = (∑ d : Fin 64, f (lo d)) + (∑ d : Fin 64, f (hi d)) := by
  have h := Fin.sum_univ_add (a := 64) (b := 64) (fun k : Fin (64 + 64) => f ⟨k.val, by omega⟩)
  refine (Eq.trans ?_ h).trans ?_
  · rfl
  · rfl

/-- An index word as array indexing reads it: a negative word has the table's length (100000) added. -/
def wrapIdx (s : BitVec 32) : BitVec 32 :=
  Scalar.select (IntOp.cmpi .slt s 0#32) (IntOp.addi s 100000#32) s

/-- The table row a source word selects: the wrapped word read signed and clamped into the table. -/
def rowOf (s : BitVec 32) : Fin 100000 := ⟨min (wrapIdx s).toInt.toNat 99999, by omega⟩

section Spec

variable (nf : Fin 100000 → Fin 64 → EReal) (ef : Fin 1600000 → Fin 64 → EReal)
  (src dst : Fin 1600000 → BitVec 32)
  (Wm : Fin 64 → Fin 128 → EReal) (bm : Fin 64 → EReal) (Wa : Fin 64 → Fin 128 → EReal) (ba : Fin 64 → EReal)

/-- Feature `o` of the message on edge `e`. -/
def msg (e : Fin 1600000) (o : Fin 64) : EReal :=
  layer (nf (rowOf (src e))) (ef e) (fun d => Wm o (lo d)) (fun d => Wm o (hi d)) (bm o)

/-- Feature `o` of what node `n` collects: from zero, the messages of the edges whose destination word reads `n`. -/
def collected (n : Fin 100000) (o : Fin 64) : EReal :=
  zeroF + ∑ e ∈ Finset.univ.filter (fun e : Fin 1600000 => (dst e).toInt = (n.val : ℤ)), msg nf ef src Wm bm e o

/-- Feature `o` of the updated node `n`. -/
def updated (n : Fin 100000) (o : Fin 64) : EReal :=
  layer (nf n) (collected nf ef src dst Wm bm n) (fun d => Wa o (lo d)) (fun d => Wa o (hi d)) (ba o)

end Spec

/-- The result array [100000, 1, 64] as one function of the eight argument arrays. -/
def G (x0 : (⟨3, ![100000, 1, 64]⟩ : Shape).Idx → EReal) (x1 : (⟨3, ![1600000, 1, 64]⟩ : Shape).Idx → EReal)
    (x2 x3 : (⟨1, ![1600000]⟩ : Shape).Idx → BitVec 32)
    (x4 : (⟨2, ![64, 128]⟩ : Shape).Idx → EReal) (x5 : (⟨1, ![64]⟩ : Shape).Idx → EReal)
    (x6 : (⟨2, ![64, 128]⟩ : Shape).Idx → EReal) (x7 : (⟨1, ![64]⟩ : Shape).Idx → EReal) :
    (⟨3, ![100000, 1, 64]⟩ : Shape).Idx → EReal :=
  fun i => updated (fun n d => x0 (ix3 n (0 : Fin 1) d)) (fun e d => x1 (ix3 e (0 : Fin 1) d))
    (fun e => x2 (ix1 e)) (fun e => x3 (ix1 e))
    (fun o k => x4 (ix2 o k)) (fun o => x5 (ix1 o)) (fun o k => x6 (ix2 o k)) (fun o => x7 (ix1 o)) (i 0) (i 2)

end Cert.MsgPass

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.HostRead.lean ====
/-
  The kernel program's result buffer is `G` of the launch arguments.

  The program reshapes the node and edge features to matrices, wraps the source indices, gathers the source rows,
  cuts the message weights into their two 64-column halves, and runs the first launch: its output array is the
  message of every edge. It then scatter-adds the messages from zero onto the destination rows, cuts the update
  weights into halves, and runs the second launch on the node features and the collected sums: its output array is
  the updated feature of every node, which a last broadcast gives its unit middle axis back.

  Each step is read at one element: a reshape between [n, 1, 64] and [n, 64] keeps (row, feature); a column slice at
  offset 0 or 64 is the first or second half of a 128-row; a broadcast of a column of indices reads the index of
  its row; the gather reads the row at the wrapped, signed, clamped index; the scatter-add reads as the start value
  plus the sum over the edges whose destination word reads the row.
-/
import proofs.«404292_j24524263260519_3_alg».proof.Proof.Gen.KernelIdeal.Frame
import proofs.«404292_j24524263260519_3_alg».proof.Proof.Layer
import proofs.«404292_j24524263260519_3_alg».proof.Proof.LibRowGatherScatter
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.HostRead

open Cert.KernelIdeal Cert.KernelIdeal.Gen Cert.MsgPass
open Idealize.ShloMosaic Idealize.ShloMosaic.ValueIdx

/-! ## The host operations, each read at one element -/

/-- The wrapped source indices as a column: entry (e, 0) is the wrapped index word of edge `e`. -/
theorem wrapped_column_apply (x2 : IVec S1600000 32) (e : Fin 1600000) :
    (broadcastInDim S1600000x1 ![0] bcast_S1600000_S1600000x1_0
      (select (cmpi .slt x2 (broadcastInDim S1600000 ![] bcast_S_S1600000 (constantI S_ 32 0#32)))
        (addi x2 (broadcastInDim S1600000 ![] bcast_S_S1600000 (constantI S_ 32 100000#32))) x2) : IVec S1600000x1 32)
      (ix2 e (0 : Fin 1)) = wrapIdx (x2 (ix1 e)) := by
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  show Scalar.select (IntOp.cmpi .slt (x2 (ix1 e)) (broadcastInDim S1600000 ![] bcast_S_S1600000 (constantI S_ 32 0#32) (ix1 e)))
      (IntOp.addi (x2 (ix1 e)) (broadcastInDim S1600000 ![] bcast_S_S1600000 (constantI S_ 32 100000#32) (ix1 e))) (x2 (ix1 e)) = _
  rw [broadcastInDim_apply _ bcast_S_S1600000 (constantI S_ 32 0#32) (ix1 e) (fun a => a.elim0) (fun a => a.elim0),
    broadcastInDim_apply _ bcast_S_S1600000 (constantI S_ 32 100000#32) (ix1 e) (fun a => a.elim0) (fun a => a.elim0)]
  rfl

/-- A column of index words: entry (e, 0) is the word of row `e`. -/
theorem column_apply (x3 : IVec S1600000 32) (e : Fin 1600000) :
    (broadcastInDim S1600000x1 ![0] bcast_S1600000_S1600000x1_0 x3 : IVec S1600000x1 32) (ix2 e (0 : Fin 1)) = x3 (ix1 e) :=
  broadcastInDim_apply _ bcast_S1600000_S1600000x1_0 x3 (ix2 e (0 : Fin 1)) (ix1 e) (fun a => match a with
    | ⟨0, _⟩ => by show e.val = if (1600000 : Nat) = 1 then 0 else e.val; rw [if_neg (by decide)])

/-- The node features as a matrix: entry (n, d) is entry (n, 0, d) of the array. -/
theorem nodes_matrix_apply {α : Type} (x0 : S100000x1x64.Idx → α) (n : Fin 100000) (d : Fin 64) :
    shapeCast S100000x64 x0 shapeCasts_S100000x1x64_S100000x64 (ix2 n d) = x0 (ix3 n (0 : Fin 1) d) :=
  shapeCast_apply x0 shapeCasts_S100000x1x64_S100000x64 (ix2 n d) (ix3 n (0 : Fin 1) d) (by
    rw [Shape.rowMajor_val_three, Shape.rowMajor_val_two]
    show (n.val * 1 + 0) * 64 + d.val = n.val * 64 + d.val
    omega)

/-- The edge features as a matrix: entry (e, d) is entry (e, 0, d) of the array. -/
theorem edges_matrix_apply {α : Type} (x1 : S1600000x1x64.Idx → α) (e : Fin 1600000) (d : Fin 64) :
    shapeCast S1600000x64 x1 shapeCasts_S1600000x1x64_S1600000x64 (ix2 e d) = x1 (ix3 e (0 : Fin 1) d) :=
  shapeCast_apply x1 shapeCasts_S1600000x1x64_S1600000x64 (ix2 e d) (ix3 e (0 : Fin 1) d) (by
    rw [Shape.rowMajor_val_three, Shape.rowMajor_val_two]
    show (e.val * 1 + 0) * 64 + d.val = e.val * 64 + d.val
    omega)

/-- The first 64 columns of a [64, 128] weight array. -/
theorem first_half_apply {α : Type} (x4 : S64x128.Idx → α) (o d : Fin 64) :
    extractStridedSlice S64x64 ![0, 0] x4 slices_S64x128_S64x64_0_0 (ix2 o d) = x4 (ix2 o (lo d)) :=
  extractStridedSlice_apply ![0, 0] x4 slices_S64x128_S64x64_0_0 (ix2 o d) (ix2 o (lo d)) (fun a => match a with
    | ⟨0, _⟩ => by show o.val = 0 + o.val; omega
    | ⟨1, _⟩ => by show d.val = 0 + d.val; omega)

/-- The last 64 columns of a [64, 128] weight array. -/
theorem second_half_apply {α : Type} (x4 : S64x128.Idx → α) (o d : Fin 64) :
    extractStridedSlice S64x64 ![0, 64] x4 slices_S64x128_S64x64_0_64 (ix2 o d) = x4 (ix2 o (hi d)) :=
  extractStridedSlice_apply ![0, 64] x4 slices_S64x128_S64x64_0_64 (ix2 o d) (ix2 o (hi d)) (fun a => match a with
    | ⟨0, _⟩ => by show o.val = 0 + o.val; omega
    | ⟨1, _⟩ => by show 64 + d.val = 64 + d.val; rfl)

/-- The start value of the collected sums: the zero word everywhere. -/
theorem zeros_apply (i : S100000x64.Idx) :
    (broadcastInDim S100000x64 ![] bcast_S_S100000x64 (constant (F := Ideal) S_ .f32 0x00000000#32) : S100000x64.Idx → EReal) i = zeroF :=
  broadcastInDim_apply _ bcast_S_S100000x64 (constant (F := Ideal) S_ .f32 0x00000000#32) i (fun a => a.elim0) (fun a => a.elim0)

/-- The result with its unit middle axis: entry (n, u, o) is entry (n, o) of the matrix. -/
theorem with_unit_axis_apply {α : Type} (y : S100000x64.Idx → α) (i : S100000x1x64.Idx) :
    broadcastInDim S100000x1x64 ![0, 2] bcast_S100000x64_S100000x1x64_0_2 y i = y (ix2 (i 0) (i 2)) :=
  broadcastInDim_apply _ bcast_S100000x64_S100000x1x64_0_2 y i (ix2 (i 0) (i 2)) (fun a => match a with
    | ⟨0, _⟩ => by show (i 0).val = if (100000 : Nat) = 1 then 0 else (i 0).val; rw [if_neg (by decide)]
    | ⟨1, _⟩ => by show (i 2).val = if (64 : Nat) = 1 then 0 else (i 2).val; rw [if_neg (by decide)])

end Cert.KernelIdeal.HostRead

end
-- ==== Proof.BodyValue.lean ====
/-
  What one grid point's body leaves in its output block, read at one element.

  The body loads a block of 10000 rows of each of its two inputs, the two 64 × 64 weight blocks and the bias; it
  multiplies each input block by the transpose of its weight block (into zero), adds the two products and the bias
  broadcast down the rows, and takes the maximum with zero. So element (r, o) of the output block is the layer of
  row r of the two input blocks against row o of the two weight blocks and entry o of the bias. The roundings to the
  16-bit format on the way into the products are the identity on the extended reals.
-/
import proofs.«404292_j24524263260519_3_alg».proof.Proof.Gen.KernelIdeal.Frame
import proofs.«404292_j24524263260519_3_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Cert.MsgPass
open Idealize.ShloMosaic Idealize.ShloMosaic.ValueIdx

/-! ## The contraction's operand indices

Both products contract axis 1 of the left operand with axis 0 of the right one. At output index `i` and contraction
position `q`, the left operand is read at (i 0, q) and the right one at (q, i 1). -/

private theorem dot_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem dot_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem dot_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem dot_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## One product, the bias, and the whole body at an element -/

/-- One product at (r, o): into zero, the sum over the 64 contraction positions d of the left block at (r, d) times the
    transposed weight block at (d, o), which is the weight block at (o, d). The casts to the same shape and the
    roundings change nothing. -/
private theorem mm_apply (x : Vec Ideal S10000x64 .f32) (w : Vec Ideal S64x64 .f32) (r : Fin 10000) (o : Fin 64) :
    matmul (F := Ideal) dot_S10000x64_S64x64_S10000x64_1_0_0_1_n_n none
      (truncf .bf16 (shapeCast S10000x64 x shapeCasts_S10000x64_S10000x64) bitsLt_bf16_f32)
      (transpose S64x64 [1, 0] (truncf .bf16 (shapeCast S64x64 w shapeCasts_S64x64_S64x64) bitsLt_bf16_f32) transposes_S64x64_p1_0_S64x64)
      (constant (F := Ideal) S10000x64 .f32 0x00000000#32) (ix2 r o)
    = ∑ d : Fin 64, x (ix2 r d) * w (ix2 o d) := by
  rw [shapeCast_self, shapeCast_self]
  refine (Ideal.matmul_constant_zero_apply _ none _ _ (ix2 r o)).trans ?_
  -- the contraction shape has one axis of extent 64: sum over Fin 64 instead
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r o) ((contrEquiv1 dot_S10000x64_S64x64_S10000x64_1_0_0_1_n_n 64 rfl rfl).symm k) = ix2 r k := funext fun a => Fin.ext (by
    match a with
    | ⟨0, _⟩ => exact dot_lhs_0 _ _
    | ⟨1, _⟩ => exact (dot_lhs_1 _ _).trans hk)
  have er : dot_S10000x64_S64x64_S10000x64_1_0_0_1_n_n.rhsIdx (ix2 r o) ((contrEquiv1 dot_S10000x64_S64x64_S10000x64_1_0_0_1_n_n 64 rfl rfl).symm k) = ix2 k o := funext fun a => Fin.ext (by
    match a with
    | ⟨0, _⟩ => exact (dot_rhs_0 _ _).trans hk
    | ⟨1, _⟩ => exact dot_rhs_1 _ _)
  rw [el, er]
  -- the left factor is x (r, k) as it stands; the right one is the transpose read at (k, o)
  refine congrArg₂ (· * ·) rfl ?_
  exact transpose_ix2_apply _ transposes_S64x64_p1_0_S64x64 k o

/-- The bias at (r, o): a vector of 64 entries, given a leading axis of extent one and repeated down the 10000 rows,
    reads its entry o whatever the row. -/
private theorem bias_apply (b : Vec Ideal S64 .f32) (r : Fin 10000) (o : Fin 64) :
    broadcastTo S10000x64 (shapeCast S1x64 b shapeCasts_S64_S1x64) broadcasts_S1x64_S10000x64 (ix2 r o) = b (ix1 o) :=
  (broadcastTo_1b_ab_apply _ broadcasts_S1x64_S10000x64 r o).trans (shapeCast_a_1a_apply b shapeCasts_S64_S1x64 (0 : Fin 1) o)

/-- The body's value at (r, o), over the five loaded blocks: maximum, sum and sum are taken element by element, each
    product and the bias read as above, and the zero compared against is the all-zero pattern. Both launches run this
    same expression. -/
private theorem body_apply (x0 x1 : Vec Ideal S10000x64 .f32) (x2 x3 : Vec Ideal S64x64 .f32) (x4 : Vec Ideal S64 .f32)
    (r : Fin 10000) (o : Fin 64) :
    maximumf (F := Ideal)
      (addf
        (addf
          (matmul (F := Ideal) dot_S10000x64_S64x64_S10000x64_1_0_0_1_n_n none
            (truncf .bf16 (shapeCast S10000x64 x0 shapeCasts_S10000x64_S10000x64) bitsLt_bf16_f32)
            (transpose S64x64 [1, 0] (truncf .bf16 (shapeCast S64x64 x2 shapeCasts_S64x64_S64x64) bitsLt_bf16_f32) transposes_S64x64_p1_0_S64x64)
            (constant (F := Ideal) S10000x64 .f32 0x00000000#32))
          (matmul (F := Ideal) dot_S10000x64_S64x64_S10000x64_1_0_0_1_n_n none
            (truncf .bf16 (shapeCast S10000x64 x1 shapeCasts_S10000x64_S10000x64) bitsLt_bf16_f32)
            (transpose S64x64 [1, 0] (truncf .bf16 (shapeCast S64x64 x3 shapeCasts_S64x64_S64x64) bitsLt_bf16_f32) transposes_S64x64_p1_0_S64x64)
            (constant (F := Ideal) S10000x64 .f32 0x00000000#32)))
        (broadcastTo S10000x64 (shapeCast S1x64 x4 shapeCasts_S64_S1x64) broadcasts_S1x64_S10000x64))
      (broadcast S10000x64 (Scalar.ofBits (F := Ideal) .f32 0x00000000#32)) (ix2 r o)
      = layer (fun d => x0 (ix2 r d)) (fun d => x1 (ix2 r d)) (fun d => x2 (ix2 o d)) (fun d => x3 (ix2 o d)) (x4 (ix1 o)) := by
  rw [maximumf_apply, addf_apply, addf_apply, mm_apply, mm_apply, bias_apply]
  rfl

/-! ## The output block

Every load and the one store go through the rectangle that covers its whole block from offset zero, so a load reads
the block itself and the store leaves its payload. -/

private theorem zeros2 : (![0, 0] : Fin 2 → Nat) = fun _ => 0 := funext fun a => match a with | ⟨0, _⟩ => rfl | ⟨1, _⟩ => rfl
private theorem zeros1 : (![0] : Fin 1 → Nat) = fun _ => 0 := funext fun a => match a with | ⟨0, _⟩ => rfl

/-- Element (r, o) of the first launch's output block. -/
theorem out0_5_apply (x0 x1 : Vec Ideal S10000x64 .f32) (x2 x3 : Vec Ideal S64x64 .f32) (x4 : Vec Ideal S64 .f32)
    (r : Fin 10000) (o : Fin 64) :
    out0_5 (F := Ideal) x0 x1 x2 x3 x4 (ix2 r o)
      = layer (fun d => x0 (ix2 r d)) (fun d => x1 (ix2 r d)) (fun d => x2 (ix2 o d)) (fun d => x3 (ix2 o d)) (x4 (ix1 o)) := by
  unfold out0_5
  rw [View.canon_unit_zero zeros2]
  simp only [View.ld_unit_zero (S := S10000x64) zeros2, View.ld_unit_zero (S := S64x64) zeros2, View.ld_unit_zero (S := S64) zeros1]
  exact body_apply x0 x1 x2 x3 x4 r o

/-- Element (r, o) of the second launch's output block. -/
theorem out1_5_apply (x0 x1 : Vec Ideal S10000x64 .f32) (x2 x3 : Vec Ideal S64x64 .f32) (x4 : Vec Ideal S64 .f32)
    (r : Fin 10000) (o : Fin 64) :
    out1_5 (F := Ideal) x0 x1 x2 x3 x4 (ix2 r o)
      = layer (fun d => x0 (ix2 r d)) (fun d => x1 (ix2 r d)) (fun d => x2 (ix2 o d)) (fun d => x3 (ix2 o d)) (x4 (ix1 o)) := by
  unfold out1_5
  rw [View.canon_unit_zero zeros2]
  simp only [View.ld_unit_zero (S := S10000x64) zeros2, View.ld_unit_zero (S := S64x64) zeros2, View.ld_unit_zero (S := S64) zeros1]
  exact body_apply x0 x1 x2 x3 x4 r o

end Cert.KernelIdeal.BodyValue

end
-- ==== Proof.Region0.lean ====
/-
  The array the first launch leaves, as one function of the arrays it finds.

  The launch runs over 160 grid points; point t reads rows [10000 t, 10000 (t + 1)) of its two inputs and the whole
  weight blocks and bias, and writes back the same rows of the output. The blocks tile the output, so every element
  (e, o) of the output ends at the layer of row e of the two inputs against row o of the two weight blocks and entry o
  of the bias.
-/
import proofs.«404292_j24524263260519_3_alg».proof.Proof.BodyValue

set_option maxRecDepth 16384

noncomputable section

namespace Cert.KernelIdeal.RegionValue

open Cert.KernelIdeal Cert.KernelIdeal.Gen Cert.MsgPass
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point `t`: the two row inputs and the output move to block row `t`,
    column block 0; the weight blocks and the bias stay at block 0. -/
theorem block_index0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- Row `p` of the first input's block at point `t` is row `e = 10000 t + p` of the array. -/
theorem rows0_0 (c : Dev nD) (t : Fin cfg0.N) (p : Fin 10000) (d : Fin 64) (e : Fin 1600000)
    (he : e.val = t.val * 10000 + p.val) :
    iblk0 V c 0 t (ix2 p d) = V c main_v8 (ix2 e d) := by
  obtain ⟨-, -, e0, e1, -⟩ := block_index0 t
  unfold iblk0
  rw [View.read_apply]
  show V c main_v8 _ = V c main_v8 _
  congr 1
  funext a
  apply Fin.ext
  match a with
  | ⟨0, _⟩ => show win0_0.index t (0 : Fin 2) * 10000 + 1 * p.val = e.val; omega
  | ⟨1, _⟩ => show win0_0.index t (1 : Fin 2) * 64 + 1 * d.val = d.val; omega

/-- Row `p` of the second input's block at point `t` is row `e = 10000 t + p` of the array. -/
theorem rows0_1 (c : Dev nD) (t : Fin cfg0.N) (p : Fin 10000) (d : Fin 64) (e : Fin 1600000)
    (he : e.val = t.val * 10000 + p.val) :
    iblk0 V c 1 t (ix2 p d) = V c main_v1 (ix2 e d) := by
  obtain ⟨-, -, -, -, e0, e1, -⟩ := block_index0 t
  unfold iblk0
  rw [View.read_apply]
  show V c main_v1 _ = V c main_v1 _
  congr 1
  funext a
  apply Fin.ext
  match a with
  | ⟨0, _⟩ => show win0_1.index t (0 : Fin 2) * 10000 + 1 * p.val = e.val; omega
  | ⟨1, _⟩ => show win0_1.index t (1 : Fin 2) * 64 + 1 * d.val = d.val; omega

/-- The first weight block is the whole array at every point: its row `o` is the array's row `o`. -/
theorem whole0_2 (c : Dev nD) (t : Fin cfg0.N) (o : Fin 64) (d : Fin 64) (o' : Fin 64) (ho : o'.val = o.val) :
    iblk0 V c 2 t (ix2 o d) = V c main_v9 (ix2 o' d) := by
  obtain ⟨-, -, -, -, -, -, e0, e1, -⟩ := block_index0 t
  unfold iblk0
  rw [View.read_apply]
  show V c main_v9 _ = V c main_v9 _
  congr 1
  funext a
  apply Fin.ext
  match a with
  | ⟨0, _⟩ => show win0_2.index t (0 : Fin 2) * 64 + 1 * o.val = o'.val; omega
  | ⟨1, _⟩ => show win0_2.index t (1 : Fin 2) * 64 + 1 * d.val = d.val; omega

/-- The second weight block is the whole array at every point: its row `o` is the array's row `o`. -/
theorem whole0_3 (c : Dev nD) (t : Fin cfg0.N) (o : Fin 64) (d : Fin 64) (o' : Fin 64) (ho : o'.val = o.val) :
    iblk0 V c 3 t (ix2 o d) = V c main_v10 (ix2 o' d) := by
  obtain ⟨-, -, -, -, -, -, -, -, e0, e1, -⟩ := block_index0 t
  unfold iblk0
  rw [View.read_apply]
  show V c main_v10 _ = V c main_v10 _
  congr 1
  funext a
  apply Fin.ext
  match a with
  | ⟨0, _⟩ => show win0_3.index t (0 : Fin 2) * 64 + 1 * o.val = o'.val; omega
  | ⟨1, _⟩ => show win0_3.index t (1 : Fin 2) * 64 + 1 * d.val = d.val; omega

/-- The bias block is the whole array at every point: its entry `o` is the array's entry `o`. -/
theorem whole0_4 (c : Dev nD) (t : Fin cfg0.N) (o : Fin 64) (o' : Fin 64) (ho : o'.val = o.val) :
    iblk0 V c 4 t (ix1 o) = V c main_arg5 (ix1 o') := by
  obtain ⟨-, -, -, -, -, -, -, -, -, -, e0⟩ := block_index0 t
  unfold iblk0
  rw [View.read_apply]
  show V c main_arg5 _ = V c main_arg5 _
  congr 1
  funext a
  apply Fin.ext
  match a with
  | ⟨0, _⟩ => show win0_4.index t (0 : Fin 1) * 64 + 1 * o.val = o'.val; omega

/-- The array the launch leaves: element (e, o) is the layer of row `e` of the two inputs against row `o` of the two
    weight blocks and entry `o` of the bias. -/
abbrev left0 (c : Dev nD) : S1600000x64.Idx → EReal :=
  fun i => layer (fun d => V c main_v8 (ix2 (i 0) d)) (fun d => V c main_v1 (ix2 (i 0) d))
    (fun d => V c main_v9 (ix2 (i 1) d)) (fun d => V c main_v10 (ix2 (i 1) d)) (V c main_arg5 (ix1 (i 1)))

/-- What point `t` writes back is block `t` of that array: element (p, q) of the block is the layer of rows
    `10000 t + p` of the inputs against row `q` of the weights and entry `q` of the bias, which is where the block's
    rectangle puts (p, q) in the array. -/
theorem flushed0 (c : Dev nD) (t : Fin cfg0.N) :
    (dat0 (F := Ideal) V c).flushed 5 t = ((cfg0.win 5).blk t).view.read (Elt Ideal) (left0 V c) := by
  show (cfg0.win 5).cut (grid0.coords t) ((dat0 V c).after 5 t) = _
  rw [after0_5]
  funext y
  obtain ⟨p, q, rfl⟩ : ∃ (p : Fin 10000) (q : Fin 64), y = ix2 p q := ⟨y 0, y 1, eq_ix2 y⟩
  rw [View.read_apply]
  show out0_5 (iblk0 V c 0 t) (iblk0 V c 1 t) (iblk0 V c 2 t) (iblk0 V c 3 t) (iblk0 V c 4 t) (ix2 p q) = _
  rw [BodyValue.out0_5_apply]
  obtain ⟨e0, e1, -⟩ := block_index0 t
  have he : (((cfg0.win 5).blk t).view.emb (ix2 p q) 0).val = t.val * 10000 + p.val := by
    show win0_5.index t (0 : Fin 2) * 10000 + 1 * p.val = _; omega
  have ho : (((cfg0.win 5).blk t).view.emb (ix2 p q) 1).val = q.val := by
    show win0_5.index t (1 : Fin 2) * 64 + 1 * q.val = _; omega
  have a0 : (fun d => iblk0 V c 0 t (ix2 p d)) = fun d => V c main_v8 (ix2 (((cfg0.win 5).blk t).view.emb (ix2 p q) 0) d) :=
    funext fun d => rows0_0 V c t p d _ he
  have a1 : (fun d => iblk0 V c 1 t (ix2 p d)) = fun d => V c main_v1 (ix2 (((cfg0.win 5).blk t).view.emb (ix2 p q) 0) d) :=
    funext fun d => rows0_1 V c t p d _ he
  have a2 : (fun d => iblk0 V c 2 t (ix2 q d)) = fun d => V c main_v9 (ix2 (((cfg0.win 5).blk t).view.emb (ix2 p q) 1) d) :=
    funext fun d => whole0_2 V c t q d _ ho
  have a3 : (fun d => iblk0 V c 3 t (ix2 q d)) = fun d => V c main_v10 (ix2 (((cfg0.win 5).blk t).view.emb (ix2 p q) 1) d) :=
    funext fun d => whole0_3 V c t q d _ ho
  have a4 : iblk0 V c 4 t (ix1 q) = V c main_arg5 (ix1 (((cfg0.win 5).blk t).view.emb (ix2 p q) 1)) :=
    whole0_4 V c t q _ ho
  rw [a0, a1, a2, a3, a4]
  rfl

/-- An index of the array is in point `t`'s block iff each coordinate is in the block's range on its axis. -/
theorem mem_block0 (t : Fin cfg0.N) (i : S1600000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v11).slice (win0_5.rect t)).set ↔ _
  rw [View.set_slice_whole, Rect.mem_set_unit]
  exact Iff.rfl

/-- The blocks tile the array: row `e` lies in the block of point `e / 10000`, and every point writes its block back. -/
theorem covered0 (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  obtain ⟨t, ht⟩ : ∃ t : Fin cfg0.N, t.val = (i 0).val / 10000 :=
    ⟨⟨(i 0).val / 10000, by show (i 0).val / 10000 < 160; omega⟩, rfl⟩
  obtain ⟨e0, e1, -⟩ := block_index0 t
  refine ⟨t, flush0_5 t, ?_⟩
  rw [mem_block0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The first launch's output array after the launch, from the contents `V` it is entered with. -/
theorem final0 (c : Dev nD) :
    (dat0 (F := Ideal) V c).arrAt 5 cfg0.N
      = fun i : S1600000x64.Idx => layer (fun d => V c main_v8 (ix2 (i 0) d)) (fun d => V c main_v1 (ix2 (i 0) d))
          (fun d => V c main_v9 (ix2 (i 1) d)) (fun d => V c main_v10 (ix2 (i 1) d)) (V c main_arg5 (ix1 (i 1))) :=
  (dat0 (F := Ideal) V c).arrAt_eq_of_cover 5 (left0 V c) (fun t _ => flushed0 V c t) covered0

end Cert.KernelIdeal.RegionValue

end
-- ==== Proof.Region1.lean ====
/-
  The array the second launch leaves, as one function of the arrays it finds.

  The launch runs over 10 grid points; point t reads rows [10000 t, 10000 (t + 1)) of its two inputs and the whole
  weight blocks and bias, and writes back the same rows of the output. The blocks tile the output, so every element
  (e, o) of the output ends at the layer of row e of the two inputs against row o of the two weight blocks and entry o
  of the bias.
-/
import proofs.«404292_j24524263260519_3_alg».proof.Proof.BodyValue

set_option maxRecDepth 16384

noncomputable section

namespace Cert.KernelIdeal.RegionValue

open Cert.KernelIdeal Cert.KernelIdeal.Gen Cert.MsgPass
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point `t`: the two row inputs and the output move to block row `t`,
    column block 0; the weight blocks and the bias stay at block 0. -/
theorem block_index1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Row `p` of the first input's block at point `t` is row `e = 10000 t + p` of the array. -/
theorem rows1_0 (c : Dev nD) (t : Fin cfg1.N) (p : Fin 10000) (d : Fin 64) (e : Fin 100000)
    (he : e.val = t.val * 10000 + p.val) :
    iblk1 V c 0 t (ix2 p d) = V c main_v0 (ix2 e d) := by
  obtain ⟨-, -, e0, e1, -⟩ := block_index1 t
  unfold iblk1
  rw [View.read_apply]
  show V c main_v0 _ = V c main_v0 _
  congr 1
  funext a
  apply Fin.ext
  match a with
  | ⟨0, _⟩ => show win1_0.index t (0 : Fin 2) * 10000 + 1 * p.val = e.val; omega
  | ⟨1, _⟩ => show win1_0.index t (1 : Fin 2) * 64 + 1 * d.val = d.val; omega

/-- Row `p` of the second input's block at point `t` is row `e = 10000 t + p` of the array. -/
theorem rows1_1 (c : Dev nD) (t : Fin cfg1.N) (p : Fin 10000) (d : Fin 64) (e : Fin 100000)
    (he : e.val = t.val * 10000 + p.val) :
    iblk1 V c 1 t (ix2 p d) = V c main_v14 (ix2 e d) := by
  obtain ⟨-, -, -, -, e0, e1, -⟩ := block_index1 t
  unfold iblk1
  rw [View.read_apply]
  show V c main_v14 _ = V c main_v14 _
  congr 1
  funext a
  apply Fin.ext
  match a with
  | ⟨0, _⟩ => show win1_1.index t (0 : Fin 2) * 10000 + 1 * p.val = e.val; omega
  | ⟨1, _⟩ => show win1_1.index t (1 : Fin 2) * 64 + 1 * d.val = d.val; omega

/-- The first weight block is the whole array at every point: its row `o` is the array's row `o`. -/
theorem whole1_2 (c : Dev nD) (t : Fin cfg1.N) (o : Fin 64) (d : Fin 64) (o' : Fin 64) (ho : o'.val = o.val) :
    iblk1 V c 2 t (ix2 o d) = V c main_v15 (ix2 o' d) := by
  obtain ⟨-, -, -, -, -, -, e0, e1, -⟩ := block_index1 t
  unfold iblk1
  rw [View.read_apply]
  show V c main_v15 _ = V c main_v15 _
  congr 1
  funext a
  apply Fin.ext
  match a with
  | ⟨0, _⟩ => show win1_2.index t (0 : Fin 2) * 64 + 1 * o.val = o'.val; omega
  | ⟨1, _⟩ => show win1_2.index t (1 : Fin 2) * 64 + 1 * d.val = d.val; omega

/-- The second weight block is the whole array at every point: its row `o` is the array's row `o`. -/
theorem whole1_3 (c : Dev nD) (t : Fin cfg1.N) (o : Fin 64) (d : Fin 64) (o' : Fin 64) (ho : o'.val = o.val) :
    iblk1 V c 3 t (ix2 o d) = V c main_v16 (ix2 o' d) := by
  obtain ⟨-, -, -, -, -, -, -, -, e0, e1, -⟩ := block_index1 t
  unfold iblk1
  rw [View.read_apply]
  show V c main_v16 _ = V c main_v16 _
  congr 1
  funext a
  apply Fin.ext
  match a with
  | ⟨0, _⟩ => show win1_3.index t (0 : Fin 2) * 64 + 1 * o.val = o'.val; omega
  | ⟨1, _⟩ => show win1_3.index t (1 : Fin 2) * 64 + 1 * d.val = d.val; omega

/-- The bias block is the whole array at every point: its entry `o` is the array's entry `o`. -/
theorem whole1_4 (c : Dev nD) (t : Fin cfg1.N) (o : Fin 64) (o' : Fin 64) (ho : o'.val = o.val) :
    iblk1 V c 4 t (ix1 o) = V c main_arg7 (ix1 o') := by
  obtain ⟨-, -, -, -, -, -, -, -, -, -, e0⟩ := block_index1 t
  unfold iblk1
  rw [View.read_apply]
  show V c main_arg7 _ = V c main_arg7 _
  congr 1
  funext a
  apply Fin.ext
  match a with
  | ⟨0, _⟩ => show win1_4.index t (0 : Fin 1) * 64 + 1 * o.val = o'.val; omega

/-- The array the launch leaves: element (e, o) is the layer of row `e` of the two inputs against row `o` of the two
    weight blocks and entry `o` of the bias. -/
abbrev left1 (c : Dev nD) : S100000x64.Idx → EReal :=
  fun i => layer (fun d => V c main_v0 (ix2 (i 0) d)) (fun d => V c main_v14 (ix2 (i 0) d))
    (fun d => V c main_v15 (ix2 (i 1) d)) (fun d => V c main_v16 (ix2 (i 1) d)) (V c main_arg7 (ix1 (i 1)))

/-- What point `t` writes back is block `t` of that array: element (p, q) of the block is the layer of rows
    `10000 t + p` of the inputs against row `q` of the weights and entry `q` of the bias, which is where the block's
    rectangle puts (p, q) in the array. -/
theorem flushed1 (c : Dev nD) (t : Fin cfg1.N) :
    (dat1 (F := Ideal) V c).flushed 5 t = ((cfg1.win 5).blk t).view.read (Elt Ideal) (left1 V c) := by
  show (cfg1.win 5).cut (grid1.coords t) ((dat1 V c).after 5 t) = _
  rw [after1_5]
  funext y
  obtain ⟨p, q, rfl⟩ : ∃ (p : Fin 10000) (q : Fin 64), y = ix2 p q := ⟨y 0, y 1, eq_ix2 y⟩
  rw [View.read_apply]
  show out1_5 (iblk1 V c 0 t) (iblk1 V c 1 t) (iblk1 V c 2 t) (iblk1 V c 3 t) (iblk1 V c 4 t) (ix2 p q) = _
  rw [BodyValue.out1_5_apply]
  obtain ⟨e0, e1, -⟩ := block_index1 t
  have he : (((cfg1.win 5).blk t).view.emb (ix2 p q) 0).val = t.val * 10000 + p.val := by
    show win1_5.index t (0 : Fin 2) * 10000 + 1 * p.val = _; omega
  have ho : (((cfg1.win 5).blk t).view.emb (ix2 p q) 1).val = q.val := by
    show win1_5.index t (1 : Fin 2) * 64 + 1 * q.val = _; omega
  have a0 : (fun d => iblk1 V c 0 t (ix2 p d)) = fun d => V c main_v0 (ix2 (((cfg1.win 5).blk t).view.emb (ix2 p q) 0) d) :=
    funext fun d => rows1_0 V c t p d _ he
  have a1 : (fun d => iblk1 V c 1 t (ix2 p d)) = fun d => V c main_v14 (ix2 (((cfg1.win 5).blk t).view.emb (ix2 p q) 0) d) :=
    funext fun d => rows1_1 V c t p d _ he
  have a2 : (fun d => iblk1 V c 2 t (ix2 q d)) = fun d => V c main_v15 (ix2 (((cfg1.win 5).blk t).view.emb (ix2 p q) 1) d) :=
    funext fun d => whole1_2 V c t q d _ ho
  have a3 : (fun d => iblk1 V c 3 t (ix2 q d)) = fun d => V c main_v16 (ix2 (((cfg1.win 5).blk t).view.emb (ix2 p q) 1) d) :=
    funext fun d => whole1_3 V c t q d _ ho
  have a4 : iblk1 V c 4 t (ix1 q) = V c main_arg7 (ix1 (((cfg1.win 5).blk t).view.emb (ix2 p q) 1)) :=
    whole1_4 V c t q _ ho
  rw [a0, a1, a2, a3, a4]
  rfl

/-- An index of the array is in point `t`'s block iff each coordinate is in the block's range on its axis. -/
theorem mem_block1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v17).slice (win1_5.rect t)).set ↔ _
  rw [View.set_slice_whole, Rect.mem_set_unit]
  exact Iff.rfl

/-- The blocks tile the array: row `e` lies in the block of point `e / 10000`, and every point writes its block back. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show (i 0).val / 10000 < 10; omega⟩, rfl⟩
  obtain ⟨e0, e1, -⟩ := block_index1 t
  refine ⟨t, flush1_5 t, ?_⟩
  rw [mem_block1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The second launch's output array after the launch, from the contents `V` it is entered with. -/
theorem final1 (c : Dev nD) :
    (dat1 (F := Ideal) V c).arrAt 5 cfg1.N
      = fun i : S100000x64.Idx => layer (fun d => V c main_v0 (ix2 (i 0) d)) (fun d => V c main_v14 (ix2 (i 0) d))
          (fun d => V c main_v15 (ix2 (i 1) d)) (fun d => V c main_v16 (ix2 (i 1) d)) (V c main_arg7 (ix1 (i 1))) :=
  (dat1 (F := Ideal) V c).arrAt_eq_of_cover 5 (left1 V c) (fun t _ => flushed1 V c t) covered1

end Cert.KernelIdeal.RegionValue

end
-- ==== Proof.KernelValue.lean ====
/-
  The kernel program's result buffer is `G` of the launch arguments.

  The program reshapes the node and edge features to matrices, wraps the source indices, gathers the source rows,
  cuts the message weights into their two 64-column halves, and runs the first launch: by its final array, entry (e, o)
  of its output is the message of edge `e`, feature `o`. It then scatter-adds the messages from zero onto the
  destination rows — entry (n, o) is what node `n` collects —, cuts the update weights into halves, and runs the second
  launch on the node features and the collected sums: entry (n, o) of its output is the updated feature of node `n`,
  which a last broadcast gives its unit middle axis back.

  A buffer no operation and no launch writes between two points of the program holds the same contents at both; this
  is how every argument, and the node-feature matrix made before the first launch, reach the place they are read.
-/
import proofs.«404292_j24524263260519_3_alg».proof.Proof.HostRead
import proofs.«404292_j24524263260519_3_alg».proof.Proof.Region0
import proofs.«404292_j24524263260519_3_alg».proof.Proof.Region1

set_option maxRecDepth 16384

noncomputable section

namespace Cert.KernelIdeal.KernelValue

open Cert.KernelIdeal Cert.KernelIdeal.Gen Cert.KernelIdeal.HostRead Cert.KernelIdeal.RegionValue Cert.MsgPass
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments as the specification takes them -/

abbrev nf (c : Dev nD) : Fin 100000 → Fin 64 → EReal := fun n d => m ((c : Thread nD τ).loc main_arg0) (ix3 n (0 : Fin 1) d)
abbrev ef (c : Dev nD) : Fin 1600000 → Fin 64 → EReal := fun e d => m ((c : Thread nD τ).loc main_arg1) (ix3 e (0 : Fin 1) d)
abbrev src (c : Dev nD) : Fin 1600000 → BitVec 32 := fun e => m ((c : Thread nD τ).loc main_arg2) (ix1 e)
abbrev dst (c : Dev nD) : Fin 1600000 → BitVec 32 := fun e => m ((c : Thread nD τ).loc main_arg3) (ix1 e)
abbrev Wm (c : Dev nD) : Fin 64 → Fin 128 → EReal := fun o k => m ((c : Thread nD τ).loc main_arg4) (ix2 o k)
abbrev bm (c : Dev nD) : Fin 64 → EReal := fun o => m ((c : Thread nD τ).loc main_arg5) (ix1 o)
abbrev Wa (c : Dev nD) : Fin 64 → Fin 128 → EReal := fun o k => m ((c : Thread nD τ).loc main_arg6) (ix2 o k)
abbrev ba (c : Dev nD) : Fin 64 → EReal := fun o => m ((c : Thread nD τ).loc main_arg7) (ix1 o)

/-- A layer depends only on its two vectors, its two weight halves and its bias. -/
theorem layer_congr {a a' b b' w1 w1' w2 w2' : Fin 64 → EReal} {s s' : EReal}
    (ha : a = a') (hb : b = b') (h1 : w1 = w1') (h2 : w2 = w2') (hs : s = s') :
    layer a b w1 w2 s = layer a' b' w1' w2' s' := by
  subst ha hb h1 h2 hs; rfl

/-! ## Buffers nothing has written yet -/

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W2_arg3 (c : Dev nD) : W2 m ρ c (Proc.devRef .tc main_arg3) = m ((c : Thread nD τ).loc main_arg3) :=
  (W2_of_ne m ρ c main_arg3 (by decide)).trans (W1_arg3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## What the first launch is entered with -/

/-- Its first input: row `e` is the node-feature row at the wrapped, signed, clamped source index of edge `e`. -/
theorem entry0_gathered (c : Dev nD) (e : Fin 1600000) (d : Fin 64) :
    V1 m ρ c main_v8 (ix2 e d) = nf m c (rowOf (src m c e)) d := by
  have h : V1 m ρ c main_v8 = Host.gather gather_S100000x64_S1600000x1_S1600000x64_1_0_n_n_0_1_164
      (shapeCast S100000x64 (m ((c : Thread nD τ).loc main_arg0)) shapeCasts_S100000x1x64_S100000x64)
      (broadcastInDim S1600000x1 ![0] bcast_S1600000_S1600000x1_0
        (select (cmpi .slt (m ((c : Thread nD τ).loc main_arg2)) (broadcastInDim S1600000 ![] bcast_S_S1600000 (constantI S_ 32 0#32)))
          (addi (m ((c : Thread nD τ).loc main_arg2)) (broadcastInDim S1600000 ![] bcast_S_S1600000 (constantI S_ 32 100000#32))) (m ((c : Thread nD τ).loc main_arg2)))) := by
    show StableHlo.after hostOps0 (W0 m ρ c) (Proc.devRef .tc main_v8) = _
    after_results <;> rfl
  rw [h, Cert.Gcn.gather_rows _ rfl rfl rfl rfl rfl _ _ e d (by decide), nodes_matrix_apply]
  refine congrArg (fun r : Fin 100000 => m ((c : Thread nD τ).loc main_arg0) (ix3 r (0 : Fin 1) d)) (Fin.ext ?_)
  exact congrArg (fun z : BitVec 32 => min z.toInt.toNat 99999) (wrapped_column_apply (m ((c : Thread nD τ).loc main_arg2)) e)

/-- Its second input: the edge features as a matrix. -/
theorem entry0_edges (c : Dev nD) (e : Fin 1600000) (d : Fin 64) :
    V1 m ρ c main_v1 (ix2 e d) = ef m c e d := by
  have h : V1 m ρ c main_v1 = shapeCast S1600000x64 (m ((c : Thread nD τ).loc main_arg1)) shapeCasts_S1600000x1x64_S1600000x64 := by
    show StableHlo.after hostOps0 (W0 m ρ c) (Proc.devRef .tc main_v1) = _
    after_results <;> rfl
  rw [h, edges_matrix_apply]

/-- Its two weight blocks: the halves of the message weights. -/
theorem entry0_w1 (c : Dev nD) (o d : Fin 64) : V1 m ρ c main_v9 (ix2 o d) = Wm m c o (lo d) := by
  have h : V1 m ρ c main_v9 = extractStridedSlice S64x64 ![0, 0] (m ((c : Thread nD τ).loc main_arg4)) slices_S64x128_S64x64_0_0 := by
    show StableHlo.after hostOps0 (W0 m ρ c) (Proc.devRef .tc main_v9) = _
    after_results <;> rfl
  rw [h, first_half_apply]
theorem entry0_w2 (c : Dev nD) (o d : Fin 64) : V1 m ρ c main_v10 (ix2 o d) = Wm m c o (hi d) := by
  have h : V1 m ρ c main_v10 = extractStridedSlice S64x64 ![0, 64] (m ((c : Thread nD τ).loc main_arg4)) slices_S64x128_S64x64_0_64 := by
    show StableHlo.after hostOps0 (W0 m ρ c) (Proc.devRef .tc main_v10) = _
    after_results <;> rfl
  rw [h, second_half_apply]

/-- Its bias. -/
theorem entry0_bias (c : Dev nD) (o : Fin 64) : V1 m ρ c main_arg5 (ix1 o) = bm m c o :=
  congrFun (W1_arg5 m ρ c) (ix1 o)

/-! ## The messages -/

/-- After the first launch its output array holds the message of every edge. -/
theorem messages (c : Dev nD) :
    W2 m ρ c (Proc.devRef .tc main_v11)
      = fun i : S1600000x64.Idx => msg (nf m c) (ef m c) (src m c) (Wm m c) (bm m c) (i 0) (i 1) := by
  refine ((W2_arr m ρ c 5).trans (final0 (V1 m ρ) c)).trans ?_
  funext i
  unfold msg
  exact layer_congr (funext fun d => entry0_gathered m ρ c (i 0) d) (funext fun d => entry0_edges m ρ c (i 0) d)
    (funext fun d => entry0_w1 m ρ c (i 1) d) (funext fun d => entry0_w2 m ρ c (i 1) d) (entry0_bias m ρ c (i 1))

/-! ## What the second launch is entered with -/

/-- Its first input: the node features as a matrix, made before the first launch and written by nothing since. -/
theorem entry1_nodes (c : Dev nD) (n : Fin 100000) (d : Fin 64) :
    V3 m ρ c main_v0 (ix2 n d) = nf m c n d := by
  have h3 : V3 m ρ c main_v0 = W2 m ρ c (Proc.devRef .tc main_v0) := by
    show StableHlo.after hostOps1 (W2 m ρ c) (Proc.devRef .tc main_v0) = _
    after_results <;> rfl
  have h1 : W1 m ρ c (Proc.devRef .tc main_v0) = shapeCast S100000x64 (m ((c : Thread nD τ).loc main_arg0)) shapeCasts_S100000x1x64_S100000x64 := by
    show StableHlo.after hostOps0 (W0 m ρ c) (Proc.devRef .tc main_v0) = _
    after_results <;> rfl
  rw [h3, W2_of_ne m ρ c main_v0 (by decide), h1, nodes_matrix_apply]

/-- Its second input: what each node collects. -/
theorem entry1_collected (c : Dev nD) (n : Fin 100000) (o : Fin 64) :
    V3 m ρ c main_v14 (ix2 n o) = collected (nf m c) (ef m c) (src m c) (dst m c) (Wm m c) (bm m c) n o := by
  have h : V3 m ρ c main_v14 = Host.scatterAdd (F := Ideal) (φ := .f32) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (W2 m ρ c (Proc.devRef .tc main_arg3)))
      (W2 m ρ c (Proc.devRef .tc main_v11)) := by
    show StableHlo.after hostOps1 (W2 m ρ c) (Proc.devRef .tc main_v14) = _
    after_results <;> rfl
  rw [h, Cert.Gcn.scatterAdd_rows _ rfl rfl rfl rfl _ _ _ n o, zeros_apply, W2_arg3, messages]
  unfold collected
  refine congrArg (zeroF + ·) ?_
  refine Finset.sum_congr (Finset.filter_congr fun e _ => ?_) fun e _ => rfl
  rw [column_apply]

/-- Its two weight blocks: the halves of the update weights. -/
theorem entry1_w1 (c : Dev nD) (o d : Fin 64) : V3 m ρ c main_v15 (ix2 o d) = Wa m c o (lo d) := by
  have h : V3 m ρ c main_v15 = extractStridedSlice S64x64 ![0, 0] (W2 m ρ c (Proc.devRef .tc main_arg6)) slices_S64x128_S64x64_0_0 := by
    show StableHlo.after hostOps1 (W2 m ρ c) (Proc.devRef .tc main_v15) = _
    after_results <;> rfl
  rw [h, W2_arg6, first_half_apply]
theorem entry1_w2 (c : Dev nD) (o d : Fin 64) : V3 m ρ c main_v16 (ix2 o d) = Wa m c o (hi d) := by
  have h : V3 m ρ c main_v16 = extractStridedSlice S64x64 ![0, 64] (W2 m ρ c (Proc.devRef .tc main_arg6)) slices_S64x128_S64x64_0_64 := by
    show StableHlo.after hostOps1 (W2 m ρ c) (Proc.devRef .tc main_v16) = _
    after_results <;> rfl
  rw [h, W2_arg6, second_half_apply]

/-- Its bias. -/
theorem entry1_bias (c : Dev nD) (o : Fin 64) : V3 m ρ c main_arg7 (ix1 o) = ba m c o := by
  have h : V3 m ρ c main_arg7 = W2 m ρ c (Proc.devRef .tc main_arg7) := by
    show StableHlo.after hostOps1 (W2 m ρ c) (Proc.devRef .tc main_arg7) = _
    after_results <;> rfl
  rw [h, W2_arg7]

/-! ## The updated nodes -/

/-- After the second launch its output array holds the updated feature of every node. -/
theorem updates (c : Dev nD) :
    W4 m ρ c (Proc.devRef .tc main_v17)
      = fun i : S100000x64.Idx => updated (nf m c) (ef m c) (src m c) (dst m c) (Wm m c) (bm m c) (Wa m c) (ba m c) (i 0) (i 1) := by
  refine ((W4_arr m ρ c 5).trans (final1 (V3 m ρ) c)).trans ?_
  funext i
  unfold updated
  exact layer_congr (funext fun d => entry1_nodes m ρ c (i 0) d) (funext fun d => entry1_collected m ρ c (i 0) d)
    (funext fun d => entry1_w1 m ρ c (i 1) d) (funext fun d => entry1_w2 m ρ c (i 1) d) (entry1_bias m ρ c (i 1))

/-! ## The result buffer -/

/-- The result buffer at the end of the program is `G` of the arguments as launched. -/
theorem result (c : Dev nD) :
    W5 m ρ c (Proc.devRef .tc main_v18)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W5 m ρ c (Proc.devRef .tc main_v18)
      = broadcastInDim S100000x1x64 ![0, 2] bcast_S100000x64_S100000x1x64_0_2 (W4 m ρ c (Proc.devRef .tc main_v17)) := by
    show StableHlo.after hostOps2 (W4 m ρ c) (Proc.devRef .tc main_v18) = _
    after_results <;> rfl
  rw [h]
  funext i
  rw [with_unit_axis_apply, updates]
  rfl

end Cert.KernelIdeal.KernelValue

end
-- ==== Proof.LibRowGatherScatter3.lean ====
/-
  A host gather of whole rows and a host scatter-add of whole rows over arrays with a unit middle axis, read at one element.

  `table[idx]` over an [N × 1 × C] table with an [E × 1] column of start indices prints as a `stablehlo.gather` whose
  row axis is collapsed and start-indexed and whose other two axes are the offset axes: result row `e` is the table's
  row at `idx e` read signed and clamped into the table.

  `zeros.at[idx].add(upd)` over such rows prints as a `stablehlo.scatter` with an `add` body whose row axis is inserted
  and scatter-indexed and whose other two axes are the update-window axes: at the extended reals element (i, u, q) ends
  at its old value plus the sum of `upd (e, u, q)` over the rows `e` whose index word reads `i` as a signed integer; a
  row whose index leaves the operand contributes nothing.
-/
import Idealize.ShloMosaic.PureOps.Ideal
import Idealize.ShloMosaic.Lib.ValueIdx

noncomputable section

namespace Cert.MsgPass

open Idealize.ShloMosaic Idealize.ShloMosaic.ValueIdx

/-- Result element (e, u, q) of a row gather is the table's element (row, u, q), `row` the start index of `e` read
    signed and clamped into `[0, N − 1]`. -/
theorem gather_rows3 {α : Type} {N E C w : Nat} (d : GatherDims ⟨3, ![N, 1, C]⟩ ⟨2, ![E, 1]⟩ ⟨3, ![E, 1, C]⟩)
    (hoff : d.offsetDims = [1, 2]) (hcoll : d.collapsedSliceDims = [0]) (hob : d.operandBatchingDims = [])
    (hsim : d.startIndexMap = [0]) (hivd : d.indexVectorDim = 1)
    (x : (⟨3, ![N, 1, C]⟩ : Shape).Idx → α) (idx : IVec ⟨2, ![E, 1]⟩ w) (e : Fin E) (u : Fin 1) (q : Fin C) (hN : 0 < N) :
    Host.gather d x idx (ix3 e u q) = x (ix3 ⟨min (idx (ix2 e (0 : Fin 1))).toInt.toNat (N - 1), by omega⟩ u q) := by
  unfold Host.gather
  congr 1
  funext a
  apply Fin.ext
  have hb : ∀ a : Fin 3, a ∉ d.operandBatchingDims := fun a => by rw [hob]; exact List.not_mem_nil
  -- the result index's coordinates, told by the axis's number
  have hc0 : ∀ X : Fin 3, X.val = 0 → ((ix3 e u q : (⟨3, ![E, 1, C]⟩ : Shape).Idx) X).val = e.val := by
    intro X hX
    obtain rfl : X = 0 := Fin.ext hX
    rfl
  have hc1 : ∀ X : Fin 3, X.val = 1 → ((ix3 e u q : (⟨3, ![E, 1, C]⟩ : Shape).Idx) X).val = u.val := by
    intro X hX
    obtain rfl : X = 1 := Fin.ext hX
    rfl
  have hc2 : ∀ X : Fin 3, X.val = 2 → ((ix3 e u q : (⟨3, ![E, 1, C]⟩ : Shape).Idx) X).val = q.val := by
    intro X hX
    obtain rfl : X = 2 := Fin.ext hX
    rfl
  -- the result's one batch axis is axis 0
  have he : ∀ X : Fin 3, X ∈ d.batchDims → X.val = 0 := by
    intro X hX
    have hX' : X ∈ (⟨3, ![E, 1, C]⟩ : Shape).kept [1, 2] := by rw [← hoff]; exact hX
    simp [Shape.kept, List.mem_filter] at hX'
    omega
  -- the result's offset axes are, in order, axes 1 and 2
  have hoffv : ∀ (k : Nat) (hk : k < d.offsetDims.length), (d.offsetDims[k]'hk).val = k + 1 := by
    rw [hoff]
    intro k hk
    match k, hk with
    | 0, _ => rfl
    | 1, _ => rfl
    | k + 2, hk => exact absurd hk (by simp)
  -- the table's axes that are neither collapsed nor batching are, in order, axes 1 and 2
  have hsk : d.sKept = [1, 2] := by
    show (⟨3, ![N, 1, C]⟩ : Shape).kept (d.collapsedSliceDims ++ d.operandBatchingDims) = [1, 2]
    rw [hcoll, hob]
    rfl
  match a with
  | ⟨0, _⟩ =>
    -- the row axis: start-indexed and collapsed, so the clamped start alone
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 e u q) idx 0 + d.batchCoord (ix3 e u q) 0 + d.offCoord (ix3 e u q) 0
      = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hc0 _ (he _ (List.getElem_mem _))
    | ⟨1, _⟩ =>
      unfold GatherDims.siIdx
      rw [dif_pos (by rw [hivd])]
      apply Fin.ext
      show List.idxOf (0 : Fin 3) d.startIndexMap = 0
      rw [hsim]; simp
  | ⟨1, _⟩ =>
    -- the unit axis: not start-indexed, kept first, so the result's coordinate on the first offset axis
    have hk : (1 : Fin 3) ∈ d.sKept := by rw [hsk]; simp
    have hm : (1 : Fin 3) ∉ d.startIndexMap := by rw [hsim]; simp
    show d.start (ix3 e u q) idx 1 + d.batchCoord (ix3 e u q) 1 + d.offCoord (ix3 e u q) 1 = u.val
    rw [GatherDims.batchCoord_eq_zero _ _ _ (hb _), Nat.add_zero]
    unfold GatherDims.start GatherDims.offCoord
    rw [dif_neg hm, dif_pos hk, Nat.zero_add]
    apply hc1
    rw [hoffv, hsk]
    rfl
  | ⟨2, _⟩ =>
    -- the column axis: not start-indexed, kept second, so the result's coordinate on the second offset axis
    have hk : (2 : Fin 3) ∈ d.sKept := by rw [hsk]; simp
    have hm : (2 : Fin 3) ∉ d.startIndexMap := by rw [hsim]; simp
    show d.start (ix3 e u q) idx 2 + d.batchCoord (ix3 e u q) 2 + d.offCoord (ix3 e u q) 2 = q.val
    rw [GatherDims.batchCoord_eq_zero _ _ _ (hb _), Nat.add_zero]
    unfold GatherDims.start GatherDims.offCoord
    rw [dif_neg hm, dif_pos hk, Nat.zero_add]
    apply hc2
    rw [hoffv, hsk]
    rfl

/-- Element (i, u, q) after a row scatter-add at the extended reals: the old value plus the updates of the rows sent to `i`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hivd : d.indexVectorDim = 1)
    (x : (⟨3, ![N, 1, C]⟩ : Shape).Idx → EReal) (idx : IVec ⟨2, ![E, 1]⟩ w) (upd : (⟨3, ![E, 1, C]⟩ : Shape).Idx → EReal)
    (i : Fin N) (u : Fin 1) (q : Fin C) :
    (Host.scatterAdd (F := Ideal) (φ := .f32) d x idx upd : (⟨3, ![N, 1, C]⟩ : Shape).Idx → EReal) (ix3 i u q)
      = x (ix3 i u q) + ∑ e ∈ Finset.univ.filter (fun e : Fin E => (idx (ix2 e (0 : Fin 1))).toInt = (i.val : ℤ)), upd (ix3 e u q) := by
  -- the updates' one scatter axis is axis 0
  have hus : ∀ X : Fin 3, X ∈ d.uScatter → X = 0 := by
    intro X hX
    have hX' : X ∈ (⟨3, ![E, 1, C]⟩ : Shape).kept [1, 2] := by rw [← huw]; exact hX
    simp [Shape.kept, List.mem_filter] at hX'
    apply Fin.ext
    show X.val = 0
    omega
  -- the updates' window axes are, in order, axes 1 and 2
  have huwv : ∀ (k : Nat) (hk : k < d.updateWindowDims.length), (d.updateWindowDims[k]'hk).val = k + 1 := by
    rw [huw]
    intro k hk
    match k, hk with
    | 0, _ => rfl
    | 1, _ => rfl
    | k + 2, hk => exact absurd hk (by simp)
  -- the operand's axes that are not inserted are, in order, axes 1 and 2
  have hsk : d.sKept = [1, 2] := by
    show (⟨3, ![N, 1, C]⟩ : Shape).kept d.insertedWindowDims = [1, 2]
    rw [hiw]
    rfl
  -- the row axis starts at the row's index word read signed, with no window coordinate (it is inserted)
  have hs0 : ∀ j : (⟨3, ![E, 1, C]⟩ : Shape).Idx, d.start j idx 0 = (idx (ix2 (j 0) (0 : Fin 1))).toInt := by
    intro j
    have hm : (0 : Fin 3) ∈ d.scatterDimsToOperandDims := by rw [hsd]; exact List.mem_singleton.mpr rfl
    have e0 : ∀ X : Fin 3, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 3) d.scatterDimsToOperandDims = 0
      rw [hsd]; simp
  have hw0 : ∀ j : (⟨3, ![E, 1, C]⟩ : Shape).Idx, d.window j 0 = 0 := by
    intro j
    have hk : (0 : Fin 3) ∉ d.sKept := by rw [hsk]; simp
    unfold ScatterDims.window
    rw [dif_neg hk]
  -- the unit axis and the column axis start at 0 (the map names neither); the window coordinate is the update's
  -- coordinate on the window axis in the same position
  have hs1 : ∀ j : (⟨3, ![E, 1, C]⟩ : Shape).Idx, d.start j idx 1 = 0 := by
    intro j
    have hm : (1 : Fin 3) ∉ d.scatterDimsToOperandDims := by rw [hsd]; simp
    unfold ScatterDims.start
    rw [dif_neg hm]
  have hs2 : ∀ j : (⟨3, ![E, 1, C]⟩ : Shape).Idx, d.start j idx 2 = 0 := by
    intro j
    have hm : (2 : Fin 3) ∉ d.scatterDimsToOperandDims := by rw [hsd]; simp
    unfold ScatterDims.start
    rw [dif_neg hm]
  have hw1 : ∀ j : (⟨3, ![E, 1, C]⟩ : Shape).Idx, d.window j 1 = (j 1).val := by
    intro j
    have hk : (1 : Fin 3) ∈ d.sKept := by rw [hsk]; simp
    have e1 : ∀ X : Fin 3, X.val = 1 → (j X).val = (j 1).val := fun X hX => by
      obtain rfl : X = 1 := Fin.ext hX
      rfl
    unfold ScatterDims.window
    rw [dif_pos hk]
    apply e1
    rw [huwv, hsk]
    rfl
  have hw2 : ∀ j : (⟨3, ![E, 1, C]⟩ : Shape).Idx, d.window j 2 = (j 2).val := by
    intro j
    have hk : (2 : Fin 3) ∈ d.sKept := by rw [hsk]; simp
    have e2 : ∀ X : Fin 3, X.val = 2 → (j X).val = (j 2).val := fun X hX => by
      obtain rfl : X = 2 := Fin.ext hX
      rfl
    unfold ScatterDims.window
    rw [dif_pos hk]
    apply e2
    rw [huwv, hsk]
    rfl
  -- an update's coordinates on the unit axis and on the column axis are below 1 and below C
  have l1 : ∀ j : (⟨3, ![E, 1, C]⟩ : Shape).Idx, (j 1).val < 1 := fun j => (j 1).isLt
  have l2 : ∀ j : (⟨3, ![E, 1, C]⟩ : Shape).Idx, (j 2).val < C := fun j => (j 2).isLt
  -- an update lands at (i, u, q) exactly when its row's index word reads i and its column is q
  have key : ∀ j : (⟨3, ![E, 1, C]⟩ : Shape).Idx, d.resultIdx? j idx = some (ix3 i u q) ↔
      (idx (ix2 (j 0) (0 : Fin 1))).toInt = (i.val : ℤ) ∧ (j 2).val = q.val := by
    intro j
    unfold ScatterDims.resultIdx?
    constructor
    · intro h
      split at h
      · rename_i hr
        have hf := Option.some.inj h
        have h0 : (d.start j idx 0 + d.window j 0).toNat = i.val := congrArg Fin.val (congrFun hf 0)
        have h2 : (d.start j idx 2 + d.window j 2).toNat = q.val := congrArg Fin.val (congrFun hf 2)
        have r0 := (hr 0).1
        rw [hs0, hw0] at h0 r0
        rw [hs2, hw2] at h2
        exact ⟨by omega, by omega⟩
      · exact absurd h (by simp)
    · rintro ⟨h0, h2⟩
      have hr : ∀ a, 0 ≤ d.start j idx a + d.window j a ∧
          d.start j idx a + d.window j a < (⟨3, ![N, 1, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < ((1 : ℕ) : ℤ)
          rw [hs1, hw1]
          have := l1 j
          omega
        | ⟨2, _⟩ =>
          show 0 ≤ d.start j idx 2 + d.window j 2 ∧ d.start j idx 2 + d.window j 2 < (C : ℤ)
          rw [hs2, hw2]
          have := l2 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = u.val
        rw [hs1, hw1]
        have := l1 j
        have := u.isLt
        omega
      | ⟨2, _⟩ =>
        apply Fin.ext
        show (d.start j idx 2 + d.window j 2).toNat = q.val
        rw [hs2, hw2, ← h2]
        omega
  -- an update index whose column is q is (its row, u, q): the unit axis has the one coordinate
  have hform : ∀ j : (⟨3, ![E, 1, C]⟩ : Shape).Idx, (j 2).val = q.val → ix3 (j 0) u q = j := by
    intro j h2
    have hu : j 1 = u := Fin.ext (by have := l1 j; have := u.isLt; omega)
    have hq : j 2 = q := Fin.ext h2
    rw [← hu, ← hq]
    exact (eq_ix3 j).symm
  show Ideal.hostScatterAdd d x idx upd (ix3 i u q) = _
  unfold Ideal.hostScatterAdd
  congr 1
  -- re-index the updates landing at (i, u, q) by their row
  refine Finset.sum_bij' (fun j _ => (j 0 : Fin E)) (fun e _ => ix3 e u q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hform j ((key j).1 (Finset.mem_filter.1 hj).2).2
  · intro e _
    rfl
  · intro j hj
    exact congrArg upd (hform j ((key j).1 (Finset.mem_filter.1 hj).2).2).symm

end Cert.MsgPass

end
-- ==== Proof.RefValue.lean ====
/-
  The reference program's result is `G` of its arguments.

  The reference gathers the source rows, joins them with the edge features along the feature axis, contracts the
  128 joined features against the message weights, adds the bias and takes the maximum with zero; it scatter-adds the
  messages onto the destination rows, joins the node features with what was collected, and applies the second layer
  the same way. Read at one element, a contraction over the 128 joined features is the sum over the first 64 (the
  first joined array) plus the sum over the last 64 (the second), which is the layer on two halves.
-/
import proofs.«404292_j24524263260519_3_alg».proof.Proof.Gen.ReferenceIdeal.Read
import proofs.«404292_j24524263260519_3_alg».proof.Proof.Layer
import proofs.«404292_j24524263260519_3_alg».proof.Proof.LibRowGatherScatter3
import Idealize.ShloMosaic.Lib.ValueIdx
import Idealize.ShloMosaic.Lib.Pipeline.Value

noncomputable section

namespace Cert.ReferenceIdeal.RefValue

open Cert.ReferenceIdeal Cert.ReferenceIdeal.Read Cert.MsgPass
open Idealize.ShloMosaic Idealize.ShloMosaic.ValueIdx

/-- The normalised source word of edge `e`: a negative word has the table's length added. -/
theorem wrapped_at (x2 : (⟨S1600000, .i32⟩ : BufTy).Contents (Elt Ideal)) (e : Fin 1600000) :
    val_main_v4 (F := Ideal) x2 (ix1 e) = wrapIdx (x2 (ix1 e)) := by
  rw [val_main_v4_apply, val_main_v1_apply, val_main_v3_apply, val_main_v0_apply, val_main_v2_apply,
    val_main_c_apply, val_main_c_0_apply]
  rfl

/-- The column of start indices holds the normalised word of edge `e` in row `e`. -/
theorem startCol_at (x2 : (⟨S1600000, .i32⟩ : BufTy).Contents (Elt Ideal)) (e : Fin 1600000) :
    val_main_v5 (F := Ideal) x2 (ix2 e (0 : Fin 1)) = wrapIdx (x2 (ix1 e)) := by
  rw [val_main_v5_apply]
  have hi : idx_main_v5 (ix2 e (0 : Fin 1)) = ix1 e :=
    funext fun a => Fin.ext (by match a with | ⟨0, _⟩ => rfl)
  rw [hi, wrapped_at]

/-- A word equal to the wrapped word, read signed and clamped into the table, is the row that word selects. -/
theorem clamp_eq_rowOf (s t : BitVec 32) (hs : t = wrapIdx s) (h : min t.toInt.toNat (100000 - 1) < 100000) :
    (⟨min t.toInt.toNat (100000 - 1), h⟩ : Fin 100000) = rowOf s := by
  subst hs
  rfl

/-- The gathered row of edge `e` is the node-feature row its source word selects. -/
theorem gathered_at (x0 : (⟨S100000x1x64, .f32⟩ : BufTy).Contents (Elt Ideal))
    (x2 : (⟨S1600000, .i32⟩ : BufTy).Contents (Elt Ideal)) (e : Fin 1600000) (d : Fin 64) :
    val_main_v6 (F := Ideal) x0 x2 (ix3 e (0 : Fin 1) d) = x0 (ix3 (rowOf (x2 (ix1 e))) (0 : Fin 1) d) := by
  unfold val_main_v6
  rw [gather_rows3 (N := 100000) (E := 1600000) (C := 64) gather_S100000x1x64_S1600000x1_S1600000x1x64_12_0_n_n_0_1_1164
    rfl rfl rfl rfl rfl x0 (val_main_v5 (F := Ideal) x2) e (0 : Fin 1) d (by decide)]
  rw [clamp_eq_rowOf (x2 (ix1 e)) _ (startCol_at x2 e)]

/-- The first 64 features of edge `e`'s joined row are its gathered source row. -/
theorem joinedEdge_lo (x0 : (⟨S100000x1x64, .f32⟩ : BufTy).Contents (Elt Ideal))
    (x1 : (⟨S1600000x1x64, .f32⟩ : BufTy).Contents (Elt Ideal))
    (x2 : (⟨S1600000, .i32⟩ : BufTy).Contents (Elt Ideal)) (e : Fin 1600000) (d : Fin 64) :
    val_main_v7 (F := Ideal) x0 x1 x2 (ix3 e (0 : Fin 1) (lo d)) = val_main_v6 (F := Ideal) x0 x2 (ix3 e (0 : Fin 1) d) := by
  unfold val_main_v7
  generalize val_main_v6 (F := Ideal) x0 x2 = y
  exact concatenate_pair_apply_left (2 : Fin 3) y x1 Gen.concatenates_S1600000x1x64_S1600000x1x64_S1600000x1x128_d2
    (ix3 e (0 : Fin 1) (lo d)) rfl (ix3 e (0 : Fin 1) d)
    (fun b => by match b with | ⟨0, _⟩ => rfl | ⟨1, _⟩ => rfl | ⟨2, _⟩ => rfl)

/-- The last 64 features of edge `e`'s joined row are its own edge features. -/
theorem joinedEdge_hi (x0 : (⟨S100000x1x64, .f32⟩ : BufTy).Contents (Elt Ideal))
    (x1 : (⟨S1600000x1x64, .f32⟩ : BufTy).Contents (Elt Ideal))
    (x2 : (⟨S1600000, .i32⟩ : BufTy).Contents (Elt Ideal)) (e : Fin 1600000) (d : Fin 64) :
    val_main_v7 (F := Ideal) x0 x1 x2 (ix3 e (0 : Fin 1) (hi d)) = x1 (ix3 e (0 : Fin 1) d) := by
  unfold val_main_v7
  generalize val_main_v6 (F := Ideal) x0 x2 = y
  exact concatenate_pair_apply_right (2 : Fin 3) y x1 Gen.concatenates_S1600000x1x64_S1600000x1x64_S1600000x1x128_d2
    (ix3 e (0 : Fin 1) (hi d)) rfl rfl (ix3 e (0 : Fin 1) d)
    (fun b hb => by
      match b, hb with
      | ⟨0, _⟩, _ => rfl
      | ⟨1, _⟩, _ => rfl
      | ⟨2, _⟩, hb => exact absurd rfl hb)
    (by show d.val + 64 = 64 + d.val; omega)

/-- The left operand's index in the first contraction: row `e`, joined feature `k`. -/
theorem lidx_v8_at (e : Fin 1600000) (o : Fin 64) (k : Fin 128) :
    lidx_main_v8 (ix3 e (0 : Fin 1) o) k = ix3 e (0 : Fin 1) k :=
  funext fun a => Fin.ext (by match a with | ⟨0, _⟩ => rfl | ⟨1, _⟩ => rfl | ⟨2, _⟩ => rfl)

/-- The right operand's index in the first contraction: weight row `o`, column `k`. -/
theorem ridx_v8_at (e : Fin 1600000) (o : Fin 64) (k : Fin 128) :
    ridx_main_v8 (ix3 e (0 : Fin 1) o) k = ix2 o k :=
  funext fun a => Fin.ext (by match a with | ⟨0, _⟩ => rfl | ⟨1, _⟩ => rfl)

/-- The bias entry the first layer's two broadcasts read at output feature `o`. -/
theorem biasIdx_v10_at (e : Fin 1600000) (o : Fin 64) :
    idx_main_v9 (idx_main_v10 (ix3 e (0 : Fin 1) o)) = ix1 o :=
  funext fun a => Fin.ext (by match a with | ⟨0, _⟩ => rfl)

/-- Feature `o` of the first layer's output on edge `e` is the message of that edge. -/
theorem message_at (x0 : (⟨S100000x1x64, .f32⟩ : BufTy).Contents (Elt Ideal))
    (x1 : (⟨S1600000x1x64, .f32⟩ : BufTy).Contents (Elt Ideal))
    (x2 : (⟨S1600000, .i32⟩ : BufTy).Contents (Elt Ideal)) (x4 : (⟨S64x128, .f32⟩ : BufTy).Contents (Elt Ideal))
    (x5 : (⟨S64, .f32⟩ : BufTy).Contents (Elt Ideal)) (e : Fin 1600000) (o : Fin 64) :
    val_main_v12 (F := Ideal) x0 x1 x2 x4 x5 (ix3 e (0 : Fin 1) o)
      = msg (fun n d => x0 (ix3 n (0 : Fin 1) d)) (fun e d => x1 (ix3 e (0 : Fin 1) d)) (fun e => x2 (ix1 e))
          (fun o k => x4 (ix2 o k)) (fun o => x5 (ix1 o)) e o := by
  rw [val_main_v12_apply, val_main_v11_apply, val_main_v8_apply, val_main_v10_apply, val_main_v9_apply,
    val_main_call0_v0_apply, val_main_call0_cst_apply, sum_halves]
  simp only [lidx_v8_at, ridx_v8_at, biasIdx_v10_at, joinedEdge_lo, joinedEdge_hi, gathered_at,
    Ideal.maximumf_def, Ideal.addf_def, Ideal.ofBits_def]
  rfl

/-- The destination column holds edge `e`'s destination word in row `e`. -/
theorem destCol_at (x3 : (⟨S1600000, .i32⟩ : BufTy).Contents (Elt Ideal)) (e : Fin 1600000) :
    val_main_v14 (F := Ideal) x3 (ix2 e (0 : Fin 1)) = x3 (ix1 e) := by
  rw [val_main_v14_apply]
  have hi : idx_main_v14 (ix2 e (0 : Fin 1)) = ix1 e :=
    funext fun a => Fin.ext (by match a with | ⟨0, _⟩ => rfl)
  rw [hi]

/-- Feature `o` of what the scatter-add leaves on node `n`: from zero, the messages of the edges sent to `n`. -/
theorem collected_at (x0 : (⟨S100000x1x64, .f32⟩ : BufTy).Contents (Elt Ideal))
    (x1 : (⟨S1600000x1x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (n : Fin 100000) (o : Fin 64) :
    val_main_v15 (F := Ideal) x0 x1 x2 x3 x4 x5 (ix3 n (0 : Fin 1) o)
      = collected (fun n d => x0 (ix3 n (0 : Fin 1) d)) (fun e d => x1 (ix3 e (0 : Fin 1) d)) (fun e => x2 (ix1 e))
          (fun e => x3 (ix1 e)) (fun o k => x4 (ix2 o k)) (fun o => x5 (ix1 o)) n o := by
  unfold val_main_v15
  rw [scatterAdd_rows3 (N := 100000) (E := 1600000) (C := 64) scatter_S100000x1x64_S1600000x1_S1600000x1x64_12_0_0_1
    rfl rfl rfl rfl (val_main_v13 (F := Ideal)) (val_main_v14 (F := Ideal) x3) (val_main_v12 (F := Ideal) x0 x1 x2 x4 x5)
    n (0 : Fin 1) o]
  rw [val_main_v13_apply, val_main_cst_apply]
  simp only [destCol_at, message_at, Ideal.ofBits_def]
  rfl

/-- The first 64 features of node `n`'s joined row are its own features. -/
theorem joinedNode_lo (x0 : (⟨S100000x1x64, .f32⟩ : BufTy).Contents (Elt Ideal))
    (x1 : (⟨S1600000x1x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (n : Fin 100000) (d : Fin 64) :
    val_main_v16 (F := Ideal) x0 x1 x2 x3 x4 x5 (ix3 n (0 : Fin 1) (lo d)) = x0 (ix3 n (0 : Fin 1) d) := by
  unfold val_main_v16
  generalize val_main_v15 (F := Ideal) x0 x1 x2 x3 x4 x5 = y
  exact concatenate_pair_apply_left (2 : Fin 3) x0 y Gen.concatenates_S100000x1x64_S100000x1x64_S100000x1x128_d2
    (ix3 n (0 : Fin 1) (lo d)) rfl (ix3 n (0 : Fin 1) d)
    (fun b => by match b with | ⟨0, _⟩ => rfl | ⟨1, _⟩ => rfl | ⟨2, _⟩ => rfl)

/-- The last 64 features of node `n`'s joined row are what the node collected. -/
theorem joinedNode_hi (x0 : (⟨S100000x1x64, .f32⟩ : BufTy).Contents (Elt Ideal))
    (x1 : (⟨S1600000x1x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (n : Fin 100000) (d : Fin 64) :
    val_main_v16 (F := Ideal) x0 x1 x2 x3 x4 x5 (ix3 n (0 : Fin 1) (hi d))
      = val_main_v15 (F := Ideal) x0 x1 x2 x3 x4 x5 (ix3 n (0 : Fin 1) d) := by
  unfold val_main_v16
  generalize val_main_v15 (F := Ideal) x0 x1 x2 x3 x4 x5 = y
  exact concatenate_pair_apply_right (2 : Fin 3) x0 y Gen.concatenates_S100000x1x64_S100000x1x64_S100000x1x128_d2
    (ix3 n (0 : Fin 1) (hi d)) rfl rfl (ix3 n (0 : Fin 1) d)
    (fun b hb => by
      match b, hb with
      | ⟨0, _⟩, _ => rfl
      | ⟨1, _⟩, _ => rfl
      | ⟨2, _⟩, hb => exact absurd rfl hb)
    (by show d.val + 64 = 64 + d.val; omega)

/-- The left operand's index in the second contraction: node `n`, joined feature `k`. -/
theorem lidx_v17_at (n : Fin 100000) (o : Fin 64) (k : Fin 128) :
    lidx_main_v17 (ix3 n (0 : Fin 1) o) k = ix3 n (0 : Fin 1) k :=
  funext fun a => Fin.ext (by match a with | ⟨0, _⟩ => rfl | ⟨1, _⟩ => rfl | ⟨2, _⟩ => rfl)

/-- The right operand's index in the second contraction: weight row `o`, column `k`. -/
theorem ridx_v17_at (n : Fin 100000) (o : Fin 64) (k : Fin 128) :
    ridx_main_v17 (ix3 n (0 : Fin 1) o) k = ix2 o k :=
  funext fun a => Fin.ext (by match a with | ⟨0, _⟩ => rfl | ⟨1, _⟩ => rfl)

/-- The bias entry the second layer's two broadcasts read at output feature `o`. -/
theorem biasIdx_v19_at (n : Fin 100000) (o : Fin 64) :
    idx_main_v18 (idx_main_v19 (ix3 n (0 : Fin 1) o)) = ix1 o :=
  funext fun a => Fin.ext (by match a with | ⟨0, _⟩ => rfl)

/-- Feature `o` of the second layer's output on node `n` is the updated node. -/
theorem updated_at (x0 : (⟨S100000x1x64, .f32⟩ : BufTy).Contents (Elt Ideal))
    (x1 : (⟨S1600000x1x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal))
    (x7 : (⟨S64, .f32⟩ : BufTy).Contents (Elt Ideal)) (n : Fin 100000) (o : Fin 64) :
    val_main_v21 (F := Ideal) x0 x1 x2 x3 x4 x5 x6 x7 (ix3 n (0 : Fin 1) o)
      = updated (fun n d => x0 (ix3 n (0 : Fin 1) d)) (fun e d => x1 (ix3 e (0 : Fin 1) d)) (fun e => x2 (ix1 e))
          (fun e => x3 (ix1 e)) (fun o k => x4 (ix2 o k)) (fun o => x5 (ix1 o)) (fun o k => x6 (ix2 o k))
          (fun o => x7 (ix1 o)) n o := by
  rw [val_main_v21_apply, val_main_v20_apply, val_main_v17_apply, val_main_v19_apply, val_main_v18_apply,
    val_main_call1_v0_apply, val_main_call1_cst_apply, sum_halves]
  simp only [lidx_v17_at, ridx_v17_at, biasIdx_v19_at, joinedNode_lo, joinedNode_hi, collected_at,
    Ideal.maximumf_def, Ideal.addf_def, Ideal.ofBits_def]
  rfl

/-- The reference's last stage, as a function of the eight arguments, is `G`. -/
theorem ref_eq_G (x0 : (⟨S100000x1x64, .f32⟩ : BufTy).Contents (Elt Ideal)) (x1 : (⟨S1600000x1x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal))
    (x7 : (⟨S64, .f32⟩ : BufTy).Contents (Elt Ideal)) :
    val_main_v21 (F := Ideal) x0 x1 x2 x3 x4 x5 x6 x7 = G x0 x1 x2 x3 x4 x5 x6 x7 := by
  funext i
  obtain ⟨n, u, o, rfl⟩ : ∃ (n : Fin 100000) (u : Fin 1) (o : Fin 64), i = ix3 n u o := ⟨i 0, i 1, i 2, eq_ix3 i⟩
  obtain rfl : u = 0 := Subsingleton.elim u 0
  rw [updated_at]
  rfl

end Cert.ReferenceIdeal.RefValue

end
-- ==== Proof.lean ====
/-
  Two rounds of message passing on a graph: the kernel program against its reference, over the extended reals.

  Both programs compute, for every node, relu of a linear map of the node's features joined with the sum of the
  messages arriving at it, a message being relu of a linear map of the source node's features joined with the edge's
  features. The reference joins the two 64-feature vectors and contracts 128 features at once; the kernel program
  never forms the joined vector: it cuts each [64, 128] weight array into its two 64-column halves and adds two
  64-feature products, inside two launches that each sweep blocks of 10000 rows. A sum over 128 indices is the sum
  over its first 64 plus the sum over its last 64, so both are one function `G` of the eight arguments; the gather of
  source rows and the scatter-add onto destination rows are the same operations in both programs (up to a unit axis)
  and read the same elements whatever the index words hold. No step needs the inputs to be finite.

  The kernel program's value: every execution ends with the result buffer at the contents the last stretch of host
  operations leaves, and those contents, walked back through the second launch's output array, the scatter-add, the
  first launch's output array and the gather, are `G` of the arguments. The reference's value: its run ends at the
  composed term of its operations, which read one element at a time is `G` of the arguments.
-/
import proofs.«404292_j24524263260519_3_alg».proof.Defs
import proofs.«404292_j24524263260519_3_alg».proof.Proof.Gen.Kernel
import proofs.«404292_j24524263260519_3_alg».proof.Proof.Gen.Kernel.Skeleton
import proofs.«404292_j24524263260519_3_alg».proof.Proof.Gen.Kernel.Launch
import proofs.«404292_j24524263260519_3_alg».proof.Proof.Gen.Kernel.Points
import proofs.«404292_j24524263260519_3_alg».proof.Proof.Gen.Kernel.Frame
import proofs.«404292_j24524263260519_3_alg».proof.Proof.Gen.KernelIdeal
import proofs.«404292_j24524263260519_3_alg».proof.Proof.Gen.KernelIdeal.Skeleton
import proofs.«404292_j24524263260519_3_alg».proof.Proof.Gen.KernelIdeal.Launch
import proofs.«404292_j24524263260519_3_alg».proof.Proof.Gen.KernelIdeal.Points
import proofs.«404292_j24524263260519_3_alg».proof.Proof.Gen.KernelIdeal.Frame
import proofs.«404292_j24524263260519_3_alg».proof.Proof.Gen.ReferenceIdeal
import proofs.«404292_j24524263260519_3_alg».proof.Proof.Gen.Pre_finite_inputs
import proofs.«404292_j24524263260519_3_alg».proof.Proof.Gen.ReferenceIdeal.Run
import proofs.«404292_j24524263260519_3_alg».proof.Proof.Gen.ReferenceIdeal.Read
import proofs.«404292_j24524263260519_3_alg».proof.Proof.RunValue
import proofs.«404292_j24524263260519_3_alg».proof.Proof.KernelValue
import proofs.«404292_j24524263260519_3_alg».proof.Proof.RefValue
import Idealize.ShloMosaic.Adequacy
import Idealize.ShloMosaic.Init

noncomputable section

namespace Cert.Proof

open Idealize.ShloMosaic Idealize.SL.Sem Cert.MsgPass

/-- The kernel program as printed runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as launched: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- The kernel program's run with its result named: `G` of the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v18)
          = G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun _ h c => ⟨(h c).1.trans (Cert.KernelIdeal.KernelValue.result m ρ c), (h c).2⟩)
    (Cert.KernelIdeal.RunValue.run (F := Ideal) m ρ)

/-- From memories agreeing on the arguments both programs end with the same result: `G` of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact (Cert.ReferenceIdeal.Read.val_main_v21_eq _ _ _ _ _ _ _ _).trans
    (Cert.ReferenceIdeal.RefValue.ref_eq_G _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
